-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S30000x300 : S_.BroadcastsInDim S30000x300 (![] : Fin 0 → Fin S30000x300.rank)
  reducesTo_S30000x300_S_d0_1 : S30000x300.ReducesTo [0, 1] S_
  bcast_S_S2x614400 : S_.BroadcastsInDim S2x614400 (![] : Fin 0 → Fin S2x614400.rank)
  reducesTo_S2x614400_S_d0_1 : S2x614400.ReducesTo [0, 1] S_
  bcast_S_S2 : S_.BroadcastsInDim S2 (![] : Fin 0 → Fin S2.rank)
  reducesTo_S2_S_d0 : S2.ReducesTo [0] S_
  bcast_S_S128x614400 : S_.BroadcastsInDim S128x614400 (![] : Fin 0 → Fin S128x614400.rank)
  reducesTo_S128x614400_S_d0_1 : S128x614400.ReducesTo [0, 1] S_

variable [Facts]

def fn_part1 {F : FTy → Type} [FloatOps F] (main_arg5 : FVec F S128x614400 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S128x614400 .f32 := Host.absf main_arg5
  let main_cst_6 : FVec F S_ .f32 := constant S_ .f32 0x7F800000#32
  let main_v20 : FVec F S128x614400 .f32 := broadcastInDim S128x614400 ![] bcast_S_S128x614400 main_cst_6
  let main_v21 : IVec S128x614400 1 := cmpf .olt main_v19 main_v20
  let main_c_7 : IVec S_ 1 := constantI S_ 1 1#1
  let main_v22 : IVec S_ 1 := (fun x v => Host.reduce IntOp.andi x v reducesTo_S128x614400_S_d0_1 h_S_) main_v21 main_c_7
  let main_v23 : IVec S_ 1 := andi main_v18 main_v22
  main_v23

def fn {F : FTy → Type} [FloatOps F] (main_arg0 : FVec F S128x2048 .f32) (main_arg1 : IVec S128 32) (main_arg2 : FVec F S30000x300 .f32) (main_arg3 : FVec F S2x614400 .f32) (main_arg4 : FVec F S2 .f32) (main_arg5 : FVec F S128x614400 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S30000x300 .f32 := Host.absf main_arg2
  let main_cst_0 : FVec F S_ .f32 := constant S_ .f32 0x7F800000#32
  let main_v5 : FVec F S30000x300 .f32 := broadcastInDim S30000x300 ![] bcast_S_S30000x300 main_cst_0
  let main_v6 : IVec S30000x300 1 := cmpf .olt main_v4 main_v5
  let main_c_1 : IVec S_ 1 := constantI S_ 1 1#1
  let main_v7 : IVec S_ 1 := (fun x v => Host.reduce IntOp.andi x v reducesTo_S30000x300_S_d0_1 h_S_) main_v6 main_c_1
  let main_v8 : IVec S_ 1 := andi main_v3 main_v7
  let main_v9 : FVec F S2x614400 .f32 := Host.absf main_arg3
  let main_cst_2 : FVec F S_ .f32 := constant S_ .f32 0x7F800000#32
  let main_v10 : FVec F S2x614400 .f32 := broadcastInDim S2x614400 ![] bcast_S_S2x614400 main_cst_2
  let main_v11 : IVec S2x614400 1 := cmpf .olt main_v9 main_v10
  let main_c_3 : IVec S_ 1 := constantI S_ 1 1#1
  let main_v12 : IVec S_ 1 := (fun x v => Host.reduce IntOp.andi x v reducesTo_S2x614400_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg5 main_v13 main_v16
-- ==== Kernel.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩
abbrev S128x1 : Shape := ⟨2, ![128, 1]⟩
abbrev S128x300 : Shape := ⟨2, ![128, 300]⟩
abbrev S128x300x2048 : Shape := ⟨3, ![128, 300, 2048]⟩
abbrev S2x300x2048 : Shape := ⟨3, ![2, 300, 2048]⟩
abbrev S128x2 : Shape := ⟨2, ![128, 2]⟩
abbrev S32x300 : Shape := ⟨2, ![32, 300]⟩
abbrev S32x128 : Shape := ⟨2, ![32, 128]⟩
abbrev S32x300x128 : Shape := ⟨3, ![32, 300, 128]⟩
abbrev S2x300x128 : Shape := ⟨3, ![2, 300, 128]⟩
abbrev S32x2 : Shape := ⟨2, ![32, 2]⟩
abbrev S32x300x1 : Shape := ⟨3, ![32, 300, 1]⟩
abbrev S32x1x128 : Shape := ⟨3, ![32, 1, 128]⟩
abbrev S32x38400 : Shape := ⟨2, ![32, 38400]⟩
abbrev S2x38400 : Shape := ⟨2, ![2, 38400]⟩
abbrev S38400x2 : Shape := ⟨2, ![38400, 2]⟩
abbrev S1x2 : Shape := ⟨2, ![1, 2]⟩

abbrev nBuf : Space → Nat
  | .hbm => 21
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S30000x300, .f32⟩
  | .hbm, ⟨3, _⟩ => ⟨S2x614400, .f32⟩
  | .hbm, ⟨4, _⟩ => ⟨S2, .f32⟩
  | .hbm, ⟨5, _⟩ => ⟨S128x614400, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x300, .f32⟩
  | .hbm, ⟨15, _⟩ => ⟨S128x300x2048, .f32⟩
  | .hbm, ⟨16, _⟩ => ⟨S2x300x2048, .f32⟩
  | .hbm, ⟨17, _⟩ => ⟨S128x2, .f32⟩
  | .hbm, ⟨18, _⟩ => ⟨S1x2, .f32⟩
  | .hbm, ⟨19, _⟩ => ⟨S128x2, .f32⟩
  | .hbm, ⟨20, _⟩ => ⟨S128x2, .f32⟩
  | .local _ .vmem, ⟨0, _⟩ => ⟨S32x300, .f32⟩
  | .local _ .vmem, ⟨1, _⟩ => ⟨S32x300, .f32⟩
  | .local _ .vmem, ⟨2, _⟩ => ⟨S32x128, .f32⟩
  | .local _ .vmem, ⟨3, _⟩ => ⟨S32x128, .f32⟩
  | .local _ .vmem, ⟨4, _⟩ => ⟨S32x300x128, .f32⟩
  | .local _ .vmem, ⟨5, _⟩ => ⟨S32x300x128, .f32⟩
  | .local _ .vmem, ⟨6, _⟩ => ⟨S2x300x128, .f32⟩
  | .local _ .vmem, ⟨7, _⟩ => ⟨S2x300x128, .f32⟩
  | .local _ .vmem, ⟨8, _⟩ => ⟨S32x2, .f32⟩
  | .local _ .vmem, ⟨9, _⟩ => ⟨S32x2, .f32⟩
  | .local _ .vmem, ⟨10, _⟩ => ⟨S32x2, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x300x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x300x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S128 : S_.BroadcastsInDim S128 (![] : Fin 0 → Fin S128.rank)
  bcast_S128_S128x1_0 : S128.BroadcastsInDim S128x1 (![0] : Fin 1 → Fin S128x1.rank)
  shapeCasts_S128x614400_S128x300x2048 : S128x614400.ShapeCasts S128x300x2048
  shapeCasts_S2x614400_S2x300x2048 : S2x614400.ShapeCasts S2x300x2048
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S32x300_S32x300_0_0 : ∀ a, (![0, 0] : Fin 2 → Nat) a + S32x300.size a ≤ S32x300.size a
  h_S32x300 : 0 < S32x300.numel
  shapeCasts_S32x300_S32x300 : S32x300.ShapeCasts S32x300
  inb_S32x128_S32x128_0_0 : ∀ a, (![0, 0] : Fin 2 → Nat) a + S32x128.size a ≤ S32x128.size a
  h_S32x128 : 0 < S32x128.numel
  inb_S32x300x128_S32x300x128_0_0_0 : ∀ a, (![0, 0, 0] : Fin 3 → Nat) a + S32x300x128.size a ≤ S32x300x128.size a
  h_S32x300x128 : 0 < S32x300x128.numel
  shapeCasts_S32x300x128_S32x300x128 : S32x300x128.ShapeCasts S32x300x128
  inb_S2x300x128_S2x300x128_0_0_0 : ∀ a, (![0, 0, 0] : Fin 3 → Nat) a + S2x300x128.size a ≤ S2x300x128.size a
  h_S2x300x128 : 0 < S2x300x128.numel
  shapeCasts_S2x300x128_S2x300x128 : S2x300x128.ShapeCasts S2x300x128
  shapeCasts_S32x300_S32x300x1 : S32x300.ShapeCasts S32x300x1
  shapeCasts_S32x128_S32x1x128 : S32x128.ShapeCasts S32x1x128
  broadcasts_S32x300x1_S32x300x128 : S32x300x1.Broadcasts S32x300x128
  broadcasts_S32x1x128_S32x300x128 : S32x1x128.Broadcasts S32x300x128
  bitsLt_bf16_f32 : FTy.bits .bf16 < FTy.bits .f32
  shapeCasts_S32x300x128_S32x38400 : S32x300x128.ShapeCasts S32x38400
  shapeCasts_S2x300x128_S2x38400 : S2x300x128.ShapeCasts S2x38400
  transposes_S2x38400_p1_0_S38400x2 : S2x38400.Transposes [1, 0] S38400x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S30000x300_S128x1_S128x300_1_0_n_n_0_1_1300_wf : GatherDims.WF S30000x300 S128x1 S128x300 [1] [0] [] [0] [] 1 ![1, 300]
  dot_S32x38400_S38400x2_S32x2_1_0_0_1_n_n_wf : DotDims.WF S32x38400 S38400x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x300.size a ≤ S128x300.size a
  hwx0_0 : ∀ i : grid0.Coords, EltTy.bits .f32 = 32 ∨ (Rect.block (s := S128x300) S32x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x2048.size a
  hwx0_1 : ∀ i : grid0.Coords, EltTy.bits .f32 = 32 ∨ (Rect.block (s := S128x2048) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x300x128.size a ≤ S128x300x2048.size a
  hwx0_2 : ∀ i : grid0.Coords, EltTy.bits .f32 = 32 ∨ (Rect.block (s := S128x300x2048) S32x300x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x300x128.size a ≤ S2x300x2048.size a
  hwx0_3 : ∀ i : grid0.Coords, EltTy.bits .f32 = 32 ∨ (Rect.block (s := S2x300x2048) S2x300x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2.size a ≤ S128x2.size a
  hwx0_4 : ∀ i : grid0.Coords, EltTy.bits .f32 = 32 ∨ (Rect.block (s := S128x2) S32x2.size (cc0_transform_4 i) (hinb0_4 i)).WholeWords (EltTy.packing .f32)

variable [Facts₀]

def gather_S30000x300_S128x1_S128x300_1_0_n_n_0_1_1300 : GatherDims S30000x300 S128x1 S128x300 where
  offsetDims := [1]
  collapsedSliceDims := [0]
  operandBatchingDims := []
  startIndicesBatchingDims := []
  startIndexMap := [0]
  indexVectorDim := 1
  sliceSizes := ![1, 300]
  wf := gather_S30000x300_S128x1_S128x300_1_0_n_n_0_1_1300_wf
def dot_S32x38400_S38400x2_S32x2_1_0_0_1_n_n : DotDims S32x38400 S38400x2 S32x2 where
  lhsContracting := [1]
  rhsContracting := [0]
  lhsNonContracting := [0]
  rhsNonContracting := [1]
  lhsBatch := []
  rhsBatch := []
  wf := dot_S32x38400_S38400x2_S32x2_1_0_0_1_n_n_wf

abbrev win0_0 : Pipeline.Window sig grid0 :=
  Pipeline.Window.ofSpec (Memref.whole main_v6) S32x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x300x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2x300x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x2048 : Shape := ⟨2, ![128, 2048]⟩
abbrev S128 : Shape := ⟨1, ![128]⟩
abbrev S30000x300 : Shape := ⟨2, ![30000, 300]⟩
abbrev S2x614400 : Shape := ⟨2, ![2, 614400]⟩
abbrev S2 : Shape := ⟨1, ![2]⟩
abbrev S128x614400 : Shape := ⟨2, ![128, 614400]⟩
abbrev S_ : Shape := ⟨0, ![]⟩
abbrev S128x1 : Shape := ⟨2, ![128, 1]⟩
abbrev S128x300 : Shape := ⟨2, ![128, 300]⟩
abbrev S128x300x1 : Shape := ⟨3, ![128, 300, 1]⟩
abbrev S128x1x2048 : Shape := ⟨3, ![128, 1, 2048]⟩
abbrev S128x300x2048 : Shape := ⟨3, ![128, 300, 2048]⟩
abbrev S614400x2 : Shape := ⟨2, ![614400, 2]⟩
abbrev S128x2 : Shape := ⟨2, ![128, 2]⟩
abbrev S1x2 : Shape := ⟨2, ![1, 2]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S30000x300, .f32⟩
  | .hbm, ⟨3, _⟩ => ⟨S2x614400, .f32⟩
  | .hbm, ⟨4, _⟩ => ⟨S2, .f32⟩
  | .hbm, ⟨5, _⟩ => ⟨S128x614400, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x300, .f32⟩
  | .hbm, ⟨15, _⟩ => ⟨S128x300x1, .f32⟩
  | .hbm, ⟨16, _⟩ => ⟨S128x1x2048, .f32⟩
  | .hbm, ⟨17, _⟩ => ⟨S128x300x2048, .f32⟩
  | .hbm, ⟨18, _⟩ => ⟨S128x300x2048, .f32⟩
  | .hbm, ⟨19, _⟩ => ⟨S128x300x2048, .f32⟩
  | .hbm, ⟨20, _⟩ => ⟨S128x614400, .f32⟩
  | .hbm, ⟨21, _⟩ => ⟨S128x614400, .f32⟩
  | .hbm, ⟨22, _⟩ => ⟨S614400x2, .f32⟩
  | .hbm, ⟨23, _⟩ => ⟨S128x2, .f32⟩
  | .hbm, ⟨24, _⟩ => ⟨S1x2, .f32⟩
  | .hbm, ⟨25, _⟩ => ⟨S128x2, .f32⟩
  | .hbm, ⟨26, _⟩ => ⟨S128x2, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x300_S128x300x1_0_1 : S128x300.BroadcastsInDim S128x300x1 (![0, 1] : Fin 2 → Fin S128x300x1.rank)
  bcast_S128x2048_S128x1x2048_0_2 : S128x2048.BroadcastsInDim S128x1x2048 (![0, 2] : Fin 2 → Fin S128x1x2048.rank)
  bcast_S128x300x1_S128x300x2048_0_1_2 : S128x300x1.BroadcastsInDim S128x300x2048 (![0, 1, 2] : Fin 3 → Fin S128x300x2048.rank)
  bcast_S128x1x2048_S128x300x2048_0_1_2 : S128x1x2048.BroadcastsInDim S128x300x2048 (![0, 1, 2] : Fin 3 → Fin S128x300x2048.rank)
  shapeCasts_S128x300x2048_S128x614400 : S128x300x2048.ShapeCasts S128x614400
  transposes_S2x614400_S614400x2_1_0 : S2x614400.Transposes [1, 0] S614400x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S30000x300_S128x1_S128x300_1_0_n_n_0_1_1300_wf : GatherDims.WF S30000x300 S128x1 S128x300 [1] [0] [] [0] [] 1 ![1, 300]
  dot_S128x614400_S614400x2_S128x2_1_0_0_1_n_n_wf : DotDims.WF S128x614400 S614400x2 S128x2 [1] [0] [0] [1] [] []

variable [Facts₀]

def gather_S30000x300_S128x1_S128x300_1_0_n_n_0_1_1300 : GatherDims S30000x300 S128x1 S128x300 where
  offsetDims := [1]
  collapsedSliceDims := [0]
  operandBatchingDims := []
  startIndicesBatchingDims := []
  startIndexMap := [0]
  indexVectorDim := 1
  sliceSizes := ![1, 300]
  wf := gather_S30000x300_S128x1_S128x300_1_0_n_n_0_1_1300_wf
def dot_S128x614400_S614400x2_S128x2_1_0_0_1_n_n : DotDims S128x614400 S614400x2 S128x2 where
  lhsContracting := [1]
  rhsContracting := [0]
  lhsNonContracting := [0]
  rhsNonContracting := [1]
  lhsBatch := []
  rhsBatch := []
  wf := dot_S128x614400_S614400x2_S128x2_1_0_0_1_n_n_wf

class Facts : Prop extends Facts₀ where

variable [Facts]
-- ==== Proof.SumRegroup.lean ====
/-
  Regrouping one finite sum over a commutative monoid.

  A sum over a flattened index `k = a·B + b` (`a < A`, `b < B`) is the double sum over `(a, b)`.
  Hence a sum over `C` chunks, each chunk a double sum over `W` rows and `L` lanes, is the double
  sum over the `W` rows and all `I = C·L` columns: the columns are only visited chunk by chunk.
  And an accumulator that starts at `0 + p 0` and then adds `p 1`, `p 2`, … holds after step `n`
  the sum of `p` over `0, …, n`. Only commutativity and associativity of `+` are used, so all of
  this holds on the extended reals, infinities included.
-/
import Mathlib.Algebra.BigOperators.Fin
import Mathlib.Data.Fintype.BigOperators
import Mathlib.Logic.Equiv.Fin.Basic

namespace Cert.SumRegroup

variable {M : Type*} [AddCommMonoid M]

/-- A sum over `Fin N`, `N = A·B`, whose summand at `k = a·B + b` is `G a b`, is the double sum of `G`. -/
theorem sum_flat {A B N : ℕ} (hN : A * B = N) (F : Fin N → M) (G : Fin A → Fin B → M)
    (h : ∀ (a : Fin A) (b : Fin B) (k : Fin N), k.val = a.val * B + b.val → F k = G a b) :
    ∑ k, F k = ∑ a, ∑ b, G a b := by
  subst hN
  rw [← Equiv.sum_comp finProdFinEquiv F, Fintype.sum_prod_type]
  refine Finset.sum_congr rfl fun a _ => Finset.sum_congr rfl fun b _ => h a b _ ?_
  show b.val + B * a.val = a.val * B + b.val
  rw [Nat.add_comm, Nat.mul_comm]

/-- `C` chunks of `L` lanes: the chunk sums over `W × L`, summed over the chunks, are the sum over `W × I`,
    `I = C·L`, when chunk `ch`'s summand at lane `l` is the whole summand at column `ch·L + l`. -/
theorem sum_chunks {W C L I : ℕ} (hI : C * L = I) (T : Fin W → Fin I → M) (P : Fin C → Fin W → Fin L → M)
    (h : ∀ (ch : Fin C) (w : Fin W) (l : Fin L) (i : Fin I), i.val = ch.val * L + l.val → P ch w l = T w i) :
    ∑ ch, ∑ w, ∑ l, P ch w l = ∑ w, ∑ i, T w i := by
  rw [Finset.sum_comm]
  refine Finset.sum_congr rfl fun w _ => ?_
  exact (sum_flat hI (T w) (fun ch l => P ch w l) fun ch l i hi => (h ch w l i hi).symm).symm

/-- The sum of `p` over `0, …, n` adds one term per step, and starts at `0 + p 0`. -/
theorem sum_range_one_zero_add (p : ℕ → M) : ∑ i ∈ Finset.range (0 + 1), p i = 0 + p 0 := by
  rw [Nat.zero_add, Finset.sum_range_one, zero_add]

/-- A sum over `range C` of a function that is `q` below `C` is the sum of `q` over `Fin C`. -/
theorem sum_range_eq_sum_fin {C : ℕ} (p : ℕ → M) (q : Fin C → M) (h : ∀ i : Fin C, p i.val = q i) :
    ∑ i ∈ Finset.range C, p i = ∑ i : Fin C, q i := by
  rw [Finset.sum_range]
  exact Finset.sum_congr rfl fun i _ => h i

end Cert.SumRegroup
-- ==== Proof.AlignSpec.lean ====
/-
  What both programs compute, as one function of the argument arrays, over the extended reals.

  For a batch row `b` and a class `c`, the score is the sum over the 300 word-vector coordinates `w`
  and the 2048 image coordinates `i` of

      wv[b, w] · ims[b, i] · mask[b, w·2048 + i] · weight[c, w·2048 + i],

  the products taken in this order, and the result adds the bias `bias[c]`. The feature axis of
  length 614400 is the pair `(w, i)` flattened row-major (`flat`).

  The image axis is cut into 16 chunks of 128 columns and the batch into 4 blocks of 32 rows:
  `chunk bi ii r c` is the part of the score of row `bi·32 + r` whose image coordinate lies in
  chunk `ii`. The sixteen chunk sums of a row add up to its score: only the order of one finite sum
  changes, so nothing is asked of the entries (they may be infinite).
-/
import Idealize.ShloMosaic.Lib.ValueIdx
import proofs.«125736_j44263932952625_1_alg».proof.Proof.SumRegroup

noncomputable section

open scoped BigOperators

namespace Cert.AlignSpec

open Idealize.ShloMosaic Idealize.ShloMosaic.ValueIdx

/-- Position `w·2048 + i` of the flattened feature axis. -/
def flat (w : Fin 300) (i : Fin 2048) : Fin 614400 :=
  ⟨w.val * 2048 + i.val, by have := w.isLt; have := i.isLt; omega⟩

/-- Row `r` of batch block `bi`. -/
def brow (bi : Fin 4) (r : Fin 32) : Fin 128 :=
  ⟨bi.val * 32 + r.val, by have := bi.isLt; have := r.isLt; omega⟩

/-- Column `l` of image chunk `ii`. -/
def col (ii : Fin 16) (l : Fin 128) : Fin 2048 :=
  ⟨ii.val * 128 + l.val, by have := ii.isLt; have := l.isLt; omega⟩

variable (wv : (⟨2, ![128, 300]⟩ : Shape).Idx → EReal) (ims : (⟨2, ![128, 2048]⟩ : Shape).Idx → EReal)
  (dm : (⟨2, ![128, 614400]⟩ : Shape).Idx → EReal) (aw : (⟨2, ![2, 614400]⟩ : Shape).Idx → EReal)
  (ab : (⟨1, ![2]⟩ : Shape).Idx → EReal)

/-- One term of the score: word-vector entry, image entry, mask entry, weight entry, multiplied in this order. -/
def term (b : Fin 128) (c : Fin 2) (w : Fin 300) (i : Fin 2048) : EReal :=
  wv (ix2 b w) * ims (ix2 b i) * dm (ix2 b (flat w i)) * aw (ix2 c (flat w i))

/-- The score of row `j 0` for class `j 1`: all 300 × 2048 terms. -/
def score (j : (⟨2, ![128, 2]⟩ : Shape).Idx) : EReal :=
  ∑ w : Fin 300, ∑ i : Fin 2048, term wv ims dm aw (j 0) (j 1) w i

/-- The result: the score plus the class's bias. -/
def result (j : (⟨2, ![128, 2]⟩ : Shape).Idx) : EReal :=
  score wv ims dm aw j + ab (ix1 (j 1))

/-- The part of the score of row `bi·32 + r` whose image coordinate lies in chunk `ii`. -/
def chunk (bi : Fin 4) (ii : Fin 16) (r : Fin 32) (c : Fin 2) : EReal :=
  ∑ w : Fin 300, ∑ l : Fin 128, term wv ims dm aw (brow bi r) c w (col ii l)

/-- The sixteen chunk sums of a row are its score. -/
theorem sum_chunk (bi : Fin 4) (r : Fin 32) (c : Fin 2) :
    ∑ ii : Fin 16, chunk wv ims dm aw bi ii r c = score wv ims dm aw (ix2 (brow bi r) c) :=
  Cert.SumRegroup.sum_chunks (W := 300) (C := 16) (L := 128) (I := 2048) rfl
    (fun w i => term wv ims dm aw (brow bi r) c w i)
    (fun ii w l => term wv ims dm aw (brow bi r) c w (col ii l))
    (fun ch w l i hi => by rw [show col ch l = i from Fin.ext hi.symm])

/-- The chunk sums by chunk NUMBER (zero past the last chunk), so that a running sum can be stated over `range`. -/
def chunkN (bi : Fin 4) (r : Fin 32) (c : Fin 2) (i : ℕ) : EReal :=
  if h : i < 16 then chunk wv ims dm aw bi ⟨i, h⟩ r c else 0

theorem chunkN_of_lt (bi : Fin 4) (r : Fin 32) (c : Fin 2) (i : ℕ) (h : i < 16) :
    chunkN wv ims dm aw bi r c i = chunk wv ims dm aw bi ⟨i, h⟩ r c := dif_pos h

/-- The running sum after the last chunk is the score. -/
theorem sum_range_chunkN (bi : Fin 4) (r : Fin 32) (c : Fin 2) :
    ∑ i ∈ Finset.range 16, chunkN wv ims dm aw bi r c i = score wv ims dm aw (ix2 (brow bi r) c) :=
  (Cert.SumRegroup.sum_range_eq_sum_fin _ (fun ii : Fin 16 => chunk wv ims dm aw bi ii r c)
    (fun ii => chunkN_of_lt wv ims dm aw bi r c ii.val ii.isLt)).trans (sum_chunk wv ims dm aw bi r c)

end Cert.AlignSpec

end
-- ==== Proof.KernelBlocks.lean ====
/-
  The kernel's input blocks, read at an entry, as entries of the argument arrays.

  Grid point `t = bi·16 + ii` works on batch block `bi` (rows `bi·32 … bi·32 + 31`) and image chunk `ii`
  (columns `ii·128 … ii·128 + 127`). Its word-vector block is rows `bi·32 + r` of the gathered word vectors
  (all 300 coordinates); its image block is those rows at the chunk's columns; its mask block is those rows of
  the mask, viewed as [128, 300, 2048], at the chunk's columns, that is the flat mask at `w·2048 + ii·128 + l`;
  its weight block is both classes of the weights at the same flat positions. Hence the 300 × 128 products the
  point adds to its accumulator are exactly one `chunk` of the score.
-/
import proofs.«125736_j44263932952625_1_alg».proof.Proof.Gen.KernelIdeal.Frame
import proofs.«125736_j44263932952625_1_alg».proof.Proof.AlignSpec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Align

open Cert.KernelIdeal Cert.KernelIdeal.Gen Idealize.ShloMosaic Idealize.ShloMosaic.TcCoe Idealize.ShloMosaic.ValueIdx
open Idealize.SL.Sem Cert.AlignSpec

variable (m : (ℓ : Loc nD τ sig) → Buf (Elt Ideal) ℓ) (ρ : Dev nD → PrngReg)

/-! ## The arrays, by their literal types -/

/-- The gathered word vectors, as the region finds them. -/
abbrev wvArr (c : Dev nD) : Vec Ideal S128x300 .f32 := V m c main_v6
/-- The four arguments the score reads, as launched. -/
abbrev imsArr (c : Dev nD) : Vec Ideal S128x2048 .f32 := m ((c : Thread nD τ).loc main_arg0)
abbrev maskArr (c : Dev nD) : Vec Ideal S128x614400 .f32 := m ((c : Thread nD τ).loc main_arg5)
abbrev weightArr (c : Dev nD) : Vec Ideal S2x614400 .f32 := m ((c : Thread nD τ).loc main_arg3)
abbrev biasArr (c : Dev nD) : Vec Ideal S2 .f32 := m ((c : Thread nD τ).loc main_arg4)

/-- The four input blocks of a point. -/
abbrev blk0 (c : Dev nD) (t : Fin cfg0.N) : Vec Ideal S32x300 .f32 := iblk m c 0 t
abbrev blk1 (c : Dev nD) (t : Fin cfg0.N) : Vec Ideal S32x128 .f32 := iblk m c 1 t
abbrev blk2 (c : Dev nD) (t : Fin cfg0.N) : Vec Ideal S32x300x128 .f32 := iblk m c 2 t
abbrev blk3 (c : Dev nD) (t : Fin cfg0.N) : Vec Ideal S2x300x128 .f32 := iblk m c 3 t

/-- The mask as the region finds it is the launched mask viewed as [128, 300, 2048]. -/
theorem V_mask3 (c : Dev nD) :
    (V m c main_v7 : Vec Ideal S128x300x2048 .f32) = shapeCast S128x300x2048 (maskArr m c) shapeCasts_S128x614400_S128x300x2048 := by
  show StableHlo.after (List.flatten [hostOps0]) (fun b => m (c, b)) (Proc.devRef .tc main_v7) = _
  simp only [hostOps0, List.flatten_cons, List.flatten_nil, List.append_nil]
  after_results
  rfl

/-- The weights as the region finds them are the launched weights viewed as [2, 300, 2048]. -/
theorem V_weight3 (c : Dev nD) :
    (V m c main_v8 : Vec Ideal S2x300x2048 .f32) = shapeCast S2x300x2048 (weightArr m c) shapeCasts_S2x614400_S2x300x2048 := by
  show StableHlo.after (List.flatten [hostOps0]) (fun b => m (c, b)) (Proc.devRef .tc main_v8) = _
  simp only [hostOps0, List.flatten_cons, List.flatten_nil, List.append_nil]
  after_results
  rfl

/-- The viewed mask at `(b, w, i)` is the flat mask at `(b, w·2048 + i)`. -/
theorem mask3_apply (c : Dev nD) (b : Fin 128) (w : Fin 300) (i : Fin 2048) :
    (V m c main_v7 : Vec Ideal S128x300x2048 .f32) (ix3 b w i) = maskArr m c (ix2 b (flat w i)) := by
  rw [V_mask3]
  exact shapeCast_apply _ shapeCasts_S128x614400_S128x300x2048 (ix3 b w i) (ix2 b (flat w i)) (by
    rw [Shape.rowMajor_val_two, Shape.rowMajor_val_three]
    show b.val * 614400 + (w.val * 2048 + i.val) = (b.val * 300 + w.val) * 2048 + i.val
    omega)

/-- The viewed weights at `(c', w, i)` are the flat weights at `(c', w·2048 + i)`. -/
theorem weight3_apply (c : Dev nD) (cc : Fin 2) (w : Fin 300) (i : Fin 2048) :
    (V m c main_v8 : Vec Ideal S2x300x2048 .f32) (ix3 cc w i) = weightArr m c (ix2 cc (flat w i)) := by
  rw [V_weight3]
  exact shapeCast_apply _ shapeCasts_S2x614400_S2x300x2048 (ix3 cc w i) (ix2 cc (flat w i)) (by
    rw [Shape.rowMajor_val_two, Shape.rowMajor_val_three]
    show cc.val * 614400 + (w.val * 2048 + i.val) = (cc.val * 300 + w.val) * 2048 + i.val
    omega)

/-! ## Where each window's block sits, decided over the grid -/

/-- Point `t` works on batch block `t / 16` and image chunk `t % 16`. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = t.val % 16
    ∧ win0_2.index t (0 : Fin 3) = t.val / 16 ∧ win0_2.index t (1 : Fin 3) = 0 ∧ win0_2.index t (2 : Fin 3) = t.val % 16
    ∧ win0_3.index t (0 : Fin 3) = 0 ∧ win0_3.index t (1 : Fin 3) = 0 ∧ win0_3.index t (2 : Fin 3) = t.val % 16
    ∧ win0_4.index t (0 : Fin 2) = t.val / 16 ∧ win0_4.index t (1 : Fin 2) = 0 :=
  (by decide +kernel : ∀ t : Fin grid0.N, _)

/-! ## The blocks at an entry -/

section AtPoint
variable (c : Dev nD) (t : Fin cfg0.N) (bi : Fin 4) (ii : Fin 16) (ht : t.val = bi.val * 16 + ii.val)
include ht

/-- The word-vector block: rows of batch block `bi`, every coordinate. -/
theorem blk0_apply (r : Fin 32) (w : Fin 300) : blk0 m c t (ix2 r w) = wvArr m c (ix2 (brow bi r) w) := by
  obtain ⟨e00, e01, -⟩ := idx_facts t
  show ((cfg0.win 0).blk t).view.read (Elt Ideal) (V m c (Pipeline.arrRef spec0 0)) (ix2 r w) = _
  rw [View.read_apply]
  show V m c main_v6 _ = V m c main_v6 _
  refine congrArg (V m c main_v6) (funext fun a => Fin.ext ?_)
  match a with
  | ⟨0, _⟩ => show win0_0.index t (0 : Fin 2) * 32 + 1 * r.val = bi.val * 32 + r.val; have := bi.isLt; have := ii.isLt; omega
  | ⟨1, _⟩ => show win0_0.index t (1 : Fin 2) * 300 + 1 * w.val = w.val; omega

/-- The image block: rows of batch block `bi`, columns of chunk `ii`. -/
theorem blk1_apply (r : Fin 32) (l : Fin 128) : blk1 m c t (ix2 r l) = imsArr m c (ix2 (brow bi r) (col ii l)) := by
  obtain ⟨-, -, e10, e11, -⟩ := idx_facts t
  show ((cfg0.win 1).blk t).view.read (Elt Ideal) (V m c (Pipeline.arrRef spec0 1)) (ix2 r l) = _
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_1.index t (0 : Fin 2) * 32 + 1 * r.val = bi.val * 32 + r.val; have := bi.isLt; have := ii.isLt; omega
  | ⟨1, _⟩ => show win0_1.index t (1 : Fin 2) * 128 + 1 * l.val = ii.val * 128 + l.val; have := bi.isLt; have := ii.isLt; omega

/-- The mask block: the flat mask of batch block `bi`'s rows at `w·2048 + ii·128 + l`. -/
theorem blk2_apply (r : Fin 32) (w : Fin 300) (l : Fin 128) :
    blk2 m c t (ix3 r w l) = maskArr m c (ix2 (brow bi r) (flat w (col ii l))) := by
  obtain ⟨-, -, -, -, e20, e21, e22, -⟩ := idx_facts t
  show ((cfg0.win 2).blk t).view.read (Elt Ideal) (V m c (Pipeline.arrRef spec0 2)) (ix3 r w l) = _
  rw [View.read_apply]
  refine Eq.trans ?_ (mask3_apply m c (brow bi r) w (col ii l))
  show V m c main_v7 _ = V m c main_v7 _
  refine congrArg (V m c main_v7) (funext fun a => Fin.ext ?_)
  match a with
  | ⟨0, _⟩ => show win0_2.index t (0 : Fin 3) * 32 + 1 * r.val = bi.val * 32 + r.val; have := bi.isLt; have := ii.isLt; omega
  | ⟨1, _⟩ => show win0_2.index t (1 : Fin 3) * 300 + 1 * w.val = w.val; omega
  | ⟨2, _⟩ => show win0_2.index t (2 : Fin 3) * 128 + 1 * l.val = ii.val * 128 + l.val; have := bi.isLt; have := ii.isLt; omega

/-- The weight block: both classes of the flat weights at `w·2048 + ii·128 + l`. -/
theorem blk3_apply (cc : Fin 2) (w : Fin 300) (l : Fin 128) :
    blk3 m c t (ix3 cc w l) = weightArr m c (ix2 cc (flat w (col ii l))) := by
  obtain ⟨-, -, -, -, -, -, -, e30, e31, e32, -⟩ := idx_facts t
  show ((cfg0.win 3).blk t).view.read (Elt Ideal) (V m c (Pipeline.arrRef spec0 3)) (ix3 cc w l) = _
  rw [View.read_apply]
  refine Eq.trans ?_ (weight3_apply m c cc w (col ii l))
  show V m c main_v8 _ = V m c main_v8 _
  refine congrArg (V m c main_v8) (funext fun a => Fin.ext ?_)
  match a with
  | ⟨0, _⟩ => show win0_3.index t (0 : Fin 3) * 2 + 1 * cc.val = cc.val; omega
  | ⟨1, _⟩ => show win0_3.index t (1 : Fin 3) * 300 + 1 * w.val = w.val; omega
  | ⟨2, _⟩ => show win0_3.index t (2 : Fin 3) * 128 + 1 * l.val = ii.val * 128 + l.val; have := bi.isLt; have := ii.isLt; omega

/-- So the products the point adds at entry `(r, c')` are the chunk `ii` part of row `bi·32 + r`'s score. -/
theorem point_sum (r : Fin 32) (cc : Fin 2) :
    ∑ w : Fin 300, ∑ l : Fin 128, blk0 m c t (ix2 r w) * blk1 m c t (ix2 r l) * blk2 m c t (ix3 r w l) * blk3 m c t (ix3 cc w l)
      = chunk (wvArr m c) (imsArr m c) (maskArr m c) (weightArr m c) bi ii r cc := by
  unfold chunk term
  refine Finset.sum_congr rfl fun w _ => Finset.sum_congr rfl fun l _ => ?_
  rw [blk0_apply m c t bi ii ht r w, blk1_apply m c t bi ii ht r l, blk2_apply m c t bi ii ht r w l,
    blk3_apply m c t bi ii ht cc w l]

end AtPoint

end Cert.KernelIdeal.Align

end
-- ==== Proof.KernelPieces.lean ====
/-
  What one run of the kernel body leaves behind, per control case, as values.

  The body keeps a [32, 2] accumulator in a scratch buffer across the 16 image chunks of a batch block.
  At the first chunk it stores the zero block and then the zero block plus the chunk's partial products;
  at a middle chunk it stores the accumulator it found plus the chunk's partial products; at the last
  chunk it does the same and then copies the accumulator into the output block. Every load reads a whole
  buffer and every store covers a whole buffer, so what is left is the stored value itself: the
  accumulation step applied to the point's four input blocks and to the accumulator found (the zero block
  at a first chunk).
-/
import proofs.«125736_j44263932952625_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First chunk of a batch block: the scratch ends at the step applied to the zero block. -/
theorem scratch_first (c : Dev nD) (i : grid0.Coords) (arg2 : Memref sig .tc .vmem S32x300 .f32) (harg2 : arg2.IsWhole) (arg3 : Memref sig .tc .vmem S32x128 .f32) (harg3 : arg3.IsWhole) (arg4 : Memref sig .tc .vmem S32x300x128 .f32) (harg4 : arg4.IsWhole) (arg5 : Memref sig .tc .vmem S2x300x128 .f32) (harg5 : arg5.IsWhole) (arg6 : Memref sig .tc .vmem S32x2 .f32) (harg6 : arg6.IsWhole) (arg7 : Memref sig .tc .vmem S32x2 .f32) (harg7 : arg7.IsWhole) (hc0 : cond0_0 i) (hc1 : ¬cond0_1 i) (x0 : Vec F S32x300 .f32) (x1 : Vec F S32x128 .f32) (x2 : Vec F S32x300x128 .f32) (x3 : Vec F S2x300x128 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S32x2) hz2]
  simp only [View.readAt_eq_ld, harg2.read_unread, harg3.read_unread, harg4.read_unread, harg5.read_unread,
    harg7.read_unread, View.readCov_unit_zero (S := S32x2) _ hz2, View.ld_unit_zero (S := S32x300) hz2,
    View.ld_unit_zero (S := S32x128) hz2, View.ld_unit_zero (S := S32x300x128) hz3,
    View.ld_unit_zero (S := S2x300x128) hz3, View.ld_unit_zero (S := S32x2) hz2]

/-- A middle chunk: the scratch ends at the step applied to the accumulator it held. -/
theorem scratch_middle (c : Dev nD) (i : grid0.Coords) (arg2 : Memref sig .tc .vmem S32x300 .f32) (harg2 : arg2.IsWhole) (arg3 : Memref sig .tc .vmem S32x128 .f32) (harg3 : arg3.IsWhole) (arg4 : Memref sig .tc .vmem S32x300x128 .f32) (harg4 : arg4.IsWhole) (arg5 : Memref sig .tc .vmem S2x300x128 .f32) (harg5 : arg5.IsWhole) (arg6 : Memref sig .tc .vmem S32x2 .f32) (harg6 : arg6.IsWhole) (arg7 : Memref sig .tc .vmem S32x2 .f32) (harg7 : arg7.IsWhole) (hc0 : ¬cond0_0 i) (hc1 : ¬cond0_1 i) (x0 : Vec F S32x300 .f32) (x1 : Vec F S32x128 .f32) (x2 : Vec F S32x300x128 .f32) (x3 : Vec F S2x300x128 .f32) (xs0 : Vec F S32x2 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread,
    harg7.read_unread, View.readCov_unit_zero (S := S32x2) _ hz2, View.ld_unit_zero (S := S32x300) hz2,
    View.ld_unit_zero (S := S32x128) hz2, View.ld_unit_zero (S := S32x300x128) hz3,
    View.ld_unit_zero (S := S2x300x128) hz3, View.ld_unit_zero (S := S32x2) hz2]

/-- The last chunk: the scratch ends at the step applied to the accumulator it held, -/
theorem scratch_last (c : Dev nD) (i : grid0.Coords) (arg2 : Memref sig .tc .vmem S32x300 .f32) (harg2 : arg2.IsWhole) (arg3 : Memref sig .tc .vmem S32x128 .f32) (harg3 : arg3.IsWhole) (arg4 : Memref sig .tc .vmem S32x300x128 .f32) (harg4 : arg4.IsWhole) (arg5 : Memref sig .tc .vmem S2x300x128 .f32) (harg5 : arg5.IsWhole) (arg6 : Memref sig .tc .vmem S32x2 .f32) (harg6 : arg6.IsWhole) (arg7 : Memref sig .tc .vmem S32x2 .f32) (harg7 : arg7.IsWhole) (hc0 : ¬cond0_0 i) (hc1 : cond0_1 i) (x0 : Vec F S32x300 .f32) (x1 : Vec F S32x128 .f32) (x2 : Vec F S32x300x128 .f32) (x3 : Vec F S2x300x128 .f32) (xs0 : Vec F S32x2 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread,
    harg7.read_unread, View.readCov_unit_zero (S := S32x2) _ hz2, View.ld_unit_zero (S := S32x300) hz2,
    View.ld_unit_zero (S := S32x128) hz2, View.ld_unit_zero (S := S32x300x128) hz3,
    View.ld_unit_zero (S := S2x300x128) hz3, View.ld_unit_zero (S := S32x2) hz2]

/-- and the output block holds the same value: the accumulator read back after its store. -/
theorem out_last (c : Dev nD) (i : grid0.Coords) (arg2 : Memref sig .tc .vmem S32x300 .f32) (harg2 : arg2.IsWhole) (arg3 : Memref sig .tc .vmem S32x128 .f32) (harg3 : arg3.IsWhole) (arg4 : Memref sig .tc .vmem S32x300x128 .f32) (harg4 : arg4.IsWhole) (arg5 : Memref sig .tc .vmem S2x300x128 .f32) (harg5 : arg5.IsWhole) (arg6 : Memref sig .tc .vmem S32x2 .f32) (harg6 : arg6.IsWhole) (arg7 : Memref sig .tc .vmem S32x2 .f32) (harg7 : arg7.IsWhole) (hc0 : ¬cond0_0 i) (hc1 : cond0_1 i) (x0 : Vec F S32x300 .f32) (x1 : Vec F S32x128 .f32) (x2 : Vec F S32x300x128 .f32) (x3 : Vec F S2x300x128 .f32) (xs0 : Vec F S32x2 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread,
    harg7.read_unread, View.readCov_unit_zero (S := S32x2) _ hz2, View.ld_unit_zero (S := S32x300) hz2,
    View.ld_unit_zero (S := S32x128) hz2, View.ld_unit_zero (S := S32x300x128) hz3,
    View.ld_unit_zero (S := S2x300x128) hz3, View.ld_unit_zero (S := S32x2) hz2]

end Cert.KernelIdeal.Pieces

end
-- ==== Proof.KernelPayload.lean ====
/-
  The kernel body's accumulation step, read at one entry, over the extended reals.

  At a grid point the body forms, from the word-vector block `x0` [32, 300], the image block `x1` [32, 128],
  the mask block `x2` [32, 300, 128] and the weight block `x3` [2, 300, 128], the masked outer product
  `x0[r, w] · x1[r, l] · x2[r, w, l]`, flattens `(w, l)` row-major to one axis of length 38400, and contracts
  that axis against the weight block flattened the same way and transposed. Changes of float format are the
  identity here, and the product into a zero accumulator is the plain sum over the contracted axis. So entry
  `(r, c)` of the new accumulator is the old one plus

      ∑ w < 300, ∑ l < 128,  x0[r, w] · x1[r, l] · x2[r, w, l] · x3[c, w, l].
-/
import proofs.«125736_j44263932952625_1_alg».proof.Proof.Gen.KernelIdeal.Skeleton
import proofs.«125736_j44263932952625_1_alg».proof.Proof.SumRegroup
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The contraction's operand indices: rows × contracted axis, contracted axis × columns -/

theorem lhs_axis0 (i : S32x2.Idx) (q : dot_S32x38400_S38400x2_S32x2_1_0_0_1_n_n.contr.Idx) :
    (dot_S32x38400_S38400x2_S32x2_1_0_0_1_n_n.lhsIdx i q 0).val = (i 0).val := by
  unfold DotDims.lhsIdx
  rw [dif_neg (show ¬(0 : Fin S32x38400.rank) ∈ dot_S32x38400_S38400x2_S32x2_1_0_0_1_n_n.lhsBatch by decide), dif_pos (show (0 : Fin S32x38400.rank) ∈ dot_S32x38400_S38400x2_S32x2_1_0_0_1_n_n.lhsNonContracting by decide)]
  rfl
theorem lhs_axis1 (i : S32x2.Idx) (q : dot_S32x38400_S38400x2_S32x2_1_0_0_1_n_n.contr.Idx) :
    (dot_S32x38400_S38400x2_S32x2_1_0_0_1_n_n.lhsIdx i q 1).val = (q ⟨0, by decide⟩).val :=
  dot_S32x38400_S38400x2_S32x2_1_0_0_1_n_n.lhsIdx_val_of_single rfl i q
theorem rhs_axis0 (i : S32x2.Idx) (q : dot_S32x38400_S38400x2_S32x2_1_0_0_1_n_n.contr.Idx) :
    (dot_S32x38400_S38400x2_S32x2_1_0_0_1_n_n.rhsIdx i q 0).val = (q ⟨0, by decide⟩).val :=
  dot_S32x38400_S38400x2_S32x2_1_0_0_1_n_n.rhsIdx_val_of_single rfl i q
theorem rhs_axis1 (i : S32x2.Idx) (q : dot_S32x38400_S38400x2_S32x2_1_0_0_1_n_n.contr.Idx) :
    (dot_S32x38400_S38400x2_S32x2_1_0_0_1_n_n.rhsIdx i q 1).val = (i 1).val := by
  unfold DotDims.rhsIdx
  rw [dif_neg (show ¬(1 : Fin S38400x2.rank) ∈ dot_S32x38400_S38400x2_S32x2_1_0_0_1_n_n.rhsBatch by decide), dif_pos (show (1 : Fin S38400x2.rank) ∈ dot_S32x38400_S38400x2_S32x2_1_0_0_1_n_n.rhsNonContracting by decide)]
  rfl

/-! ## The two operands at an index -/

/-- The left operand at row `r`, flattened column `k = w·128 + l`: the masked outer product at `(r, w, l)`.
    The word-vector block is read through a unit trailing axis broadcast along the lanes, the image block
    through a unit middle axis broadcast along the word-vector coordinates. -/
theorem feat_apply (x0 : Vec Ideal S32x300 .f32) (x1 : Vec Ideal S32x128 .f32) (x2 : Vec Ideal S32x300x128 .f32)
    (r : Fin 32) (w : Fin 300) (l : Fin 128) (k : Fin 38400) (hk : k.val = w.val * 128 + l.val) :
    (shapeCast S32x38400
        (truncf (F := Ideal) FTy.bf16
          (mulf
            (mulf
              (broadcastTo S32x300x128
                (shapeCast S32x300x1 (shapeCast S32x300 x0 shapeCasts_S32x300_S32x300) shapeCasts_S32x300_S32x300x1)
                broadcasts_S32x300x1_S32x300x128)
              (broadcastTo S32x300x128 (shapeCast S32x1x128 x1 shapeCasts_S32x128_S32x1x128)
                broadcasts_S32x1x128_S32x300x128))
            (shapeCast S32x300x128 x2 shapeCasts_S32x300x128_S32x300x128))
          bitsLt_bf16_f32)
        shapeCasts_S32x300x128_S32x38400 : FVec Ideal S32x38400 .bf16) (ix2 r k)
      = x0 (ix2 r w) * x1 (ix2 r l) * x2 (ix3 r w l) := by
  refine (shapeCast_apply _ shapeCasts_S32x300x128_S32x38400 (ix2 r k) (ix3 r w l) ?_).trans ?_
  · rw [Shape.rowMajor_val_three, Shape.rowMajor_val_two]
    show (r.val * 300 + w.val) * 128 + l.val = r.val * 38400 + k.val
    omega
  rw [shapeCast_self, shapeCast_self]
  refine congrArg₂ (fun a b : EReal => a * b) (congrArg₂ (fun a b : EReal => a * b) ?_ ?_) rfl
  · refine (broadcastTo_apply _ broadcasts_S32x300x1_S32x300x128 (ix3 r w l) (ix3 r w (0 : Fin 1)) (fun a => match a with
      | ⟨0, _⟩ => by show r.val = if (32 : Nat) = 1 then 0 else r.val; rw [if_neg (by decide)]
      | ⟨1, _⟩ => by show w.val = if (300 : Nat) = 1 then 0 else w.val; rw [if_neg (by decide)]
      | ⟨2, _⟩ => by show 0 = if (1 : Nat) = 1 then 0 else l.val; rw [if_pos rfl])).trans ?_
    exact shapeCast_apply _ shapeCasts_S32x300_S32x300x1 (ix3 r w (0 : Fin 1)) (ix2 r w) (by
      rw [Shape.rowMajor_val_two, Shape.rowMajor_val_three]
      show r.val * 300 + w.val = (r.val * 300 + w.val) * 1 + 0
      omega)
  · refine (broadcastTo_apply _ broadcasts_S32x1x128_S32x300x128 (ix3 r w l) (ix3 r (0 : Fin 1) l) (fun a => match a with
      | ⟨0, _⟩ => by show r.val = if (32 : Nat) = 1 then 0 else r.val; rw [if_neg (by decide)]
      | ⟨1, _⟩ => by show 0 = if (1 : Nat) = 1 then 0 else w.val; rw [if_pos rfl]
      | ⟨2, _⟩ => by show l.val = if (128 : Nat) = 1 then 0 else l.val; rw [if_neg (by decide)])).trans ?_
    exact shapeCast_apply _ shapeCasts_S32x128_S32x1x128 (ix3 r (0 : Fin 1) l) (ix2 r l) (by
      rw [Shape.rowMajor_val_two, Shape.rowMajor_val_three]
      show r.val * 128 + l.val = (r.val * 1 + 0) * 128 + l.val
      omega)

/-- The right operand at flattened row `k = w·128 + l`, column `c`: the weight block at `(c, w, l)`. -/
theorem weightT_apply (x3 : Vec Ideal S2x300x128 .f32) (c : Fin 2) (w : Fin 300) (l : Fin 128) (k : Fin 38400)
    (hk : k.val = w.val * 128 + l.val) :
    (transpose S38400x2 [1, 0]
        (shapeCast S2x38400
          (truncf (F := Ideal) FTy.bf16 (shapeCast S2x300x128 x3 shapeCasts_S2x300x128_S2x300x128) bitsLt_bf16_f32)
          shapeCasts_S2x300x128_S2x38400)
        transposes_S2x38400_p1_0_S38400x2 : FVec Ideal S38400x2 .bf16) (ix2 k c) = x3 (ix3 c w l) := by
  refine (transpose_apply [1, 0] _ transposes_S2x38400_p1_0_S38400x2 (ix2 k c) (ix2 c k) (fun b => match b with
    | ⟨0, _⟩ => rfl
    | ⟨1, _⟩ => rfl)).trans ?_
  refine (shapeCast_apply _ shapeCasts_S2x300x128_S2x38400 (ix2 c k) (ix3 c w l) ?_).trans ?_
  · rw [Shape.rowMajor_val_three, Shape.rowMajor_val_two]
    show (c.val * 300 + w.val) * 128 + l.val = c.val * 38400 + k.val
    omega
  rw [shapeCast_self]
  rfl

/-! ## The accumulation step at an entry -/

/-- Entry `(r, c)` of the stored accumulator: the loaded accumulator there plus the block's 300 × 128 products. -/
theorem pay2_apply (x0 : Vec Ideal S32x300 .f32) (x1 : Vec Ideal S32x128 .f32) (x2 : Vec Ideal S32x300x128 .f32)
    (x3 : Vec Ideal S2x300x128 .f32) (acc : Vec Ideal S32x2 .f32) (r : Fin 32) (c : Fin 2) :
    k0_pay2 (F := Ideal) x0 x1 x2 x3 acc (ix2 r c)
      = acc (ix2 r c) + ∑ w : Fin 300, ∑ l : Fin 128, x0 (ix2 r w) * x1 (ix2 r l) * x2 (ix3 r w l) * x3 (ix3 c w l) := by
  unfold k0_pay2
  dsimp only
  rw [shapeCast_self, addf_apply]
  simp only [matmul]
  rw [Ideal.matmul_constant_zero_apply]
  refine congrArg (acc (ix2 r c) + ·) ?_
  rw [← Equiv.sum_comp (contrEquiv1 dot_S32x38400_S38400x2_S32x2_1_0_0_1_n_n 38400 rfl rfl).symm]
  refine Cert.SumRegroup.sum_flat (A := 300) (B := 128) (N := 38400) rfl _ _ fun w l k hk => ?_
  have hq := contrEquiv1_symm_val dot_S32x38400_S38400x2_S32x2_1_0_0_1_n_n 38400 rfl rfl k
  have el : dot_S32x38400_S38400x2_S32x2_1_0_0_1_n_n.lhsIdx (ix2 r c) ((contrEquiv1 dot_S32x38400_S38400x2_S32x2_1_0_0_1_n_n 38400 rfl rfl).symm k) = ix2 r k := funext fun a => Fin.ext (by
    match a with
    | ⟨0, _⟩ => exact lhs_axis0 _ _
    | ⟨1, _⟩ => exact (lhs_axis1 _ _).trans hq)
  have er : dot_S32x38400_S38400x2_S32x2_1_0_0_1_n_n.rhsIdx (ix2 r c) ((contrEquiv1 dot_S32x38400_S38400x2_S32x2_1_0_0_1_n_n 38400 rfl rfl).symm k) = ix2 k c := funext fun a => Fin.ext (by
    match a with
    | ⟨0, _⟩ => exact (rhs_axis0 _ _).trans hq
    | ⟨1, _⟩ => exact rhs_axis1 _ _)
  rw [el, er]
  exact congrArg₂ (fun a b : EReal => a * b) (feat_apply x0 x1 x2 r w l k hk) (weightT_apply x3 c w l k hk)

/-- The reset value is the zero block. -/
theorem pay1_apply (j : S32x2.Idx) : k0_pay1 (F := Ideal) j = 0 := by
  unfold k0_pay1
  rw [shapeCast_self]
  exact Ideal.ofBits_zero_f32

end Cert.KernelIdeal.Payload

end
-- ==== Proof.KernelValue.lean ====
/-
  The kernel's result array, over the extended reals: the score plus the bias.

  Within batch block `bi` the scratch accumulator after image chunk `ii` holds, at entry `(r, c)`, the sum of
  the chunk parts `0, …, ii` of row `bi·32 + r`'s score for class `c` (induction on `ii`: the first chunk
  starts from the zero block, every later chunk adds its part to what the chunk before left). After chunk 15
  that is the whole score, and it is what the point copies into the output block and the pipeline writes
  back to rows `bi·32 … bi·32 + 31`. The four flushing points cover all 128 rows, so the region's result
  array is the score; the host then adds the bias broadcast along the rows.
-/
import proofs.«125736_j44263932952625_1_alg».proof.Proof.KernelBlocks
import proofs.«125736_j44263932952625_1_alg».proof.Proof.KernelPieces
import proofs.«125736_j44263932952625_1_alg».proof.Proof.KernelPayload

set_option maxRecDepth 16384

noncomputable section

open scoped BigOperators

namespace Cert.KernelIdeal.Align

open Cert.KernelIdeal Cert.KernelIdeal.Gen Idealize.ShloMosaic Idealize.ShloMosaic.TcCoe Idealize.ShloMosaic.ValueIdx
open Idealize.SL.Sem Cert.AlignSpec
open Idealize.ShloMosaic.Pipeline (Dat)

variable (m : (ℓ : Loc nD τ sig) → Buf (Elt Ideal) ℓ) (ρ : Dev nD → PrngReg)

/-- The chunk parts of this run's arrays. -/
abbrev partN (c : Dev nD) (bi : Fin 4) (r : Fin 32) (cc : Fin 2) (i : ℕ) : EReal :=
  chunkN (wvArr m c) (imsArr m c) (maskArr m c) (weightArr m c) bi r cc i

/-- The score of this run's arrays, as contents of the region's result array. -/
abbrev scoreArr (c : Dev nD) : Vec Ideal S128x2 .f32 :=
  score (wvArr m c) (imsArr m c) (maskArr m c) (weightArr m c)

/-- What the points leave does not depend on how the point's number is written. -/
theorem outsAt0_congr (c : Dev nD) (n n' : ℕ) (hn : n < cfg0.N) (hn' : n' < cfg0.N) (e : n = n') :
    outsAt0 m c n hn = outsAt0 m c n' hn' := by
  subst e; rfl

/-- The accumulation step at a point, at an entry: the accumulator found plus the point's chunk part. -/
theorem step_apply (c : Dev nD) (t : Fin cfg0.N) (bi : Fin 4) (ii : Fin 16) (ht : t.val = bi.val * 16 + ii.val)
    (acc : Vec Ideal S32x2 .f32) (r : Fin 32) (cc : Fin 2) :
    k0_pay2 (F := Ideal) (blk0 m c t) (blk1 m c t) (blk2 m c t) (blk3 m c t) acc (ix2 r cc) = acc (ix2 r cc) + partN m c bi r cc ii.val := by
  refine (Payload.pay2_apply (blk0 m c t) (blk1 m c t) (blk2 m c t) (blk3 m c t) acc r cc).trans ?_
  rw [point_sum m c t bi ii ht r cc]
  exact congrArg (acc (ix2 r cc) + ·) (chunkN_of_lt _ _ _ _ bi r cc ii.val ii.isLt).symm

/-- A first chunk (`t ≡ 0 mod 16`): the scratch ends at zero plus the chunk's part. -/
theorem scratch_first_apply (c : Dev nD) (t : Fin cfg0.N) (bi : Fin 4) (ii : Fin 16) (ht : t.val = bi.val * 16 + ii.val)
    (h0 : t.val % 16 = 0) (h1 : ¬t.val % 16 = 15) (r : Fin 32) (cc : Fin 2) :
    (outsAt0 m c t.val t.isLt).2 (ix2 r cc) = 0 + partN m c bi r cc ii.val := by
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (blk0 m c t) (blk1 m c t) (blk2 m c t) (blk3 m c t)) (ix2 r cc)).trans ?_
  refine (step_apply m c t bi ii ht (k0_pay1 (F := Ideal)) r cc).trans ?_
  rw [Payload.pay1_apply]

/-- A later chunk: the scratch ends at what the point before left plus the chunk's part. -/
theorem scratch_later_apply (c : Dev nD) (t : Fin cfg0.N) (bi : Fin 4) (ii : Fin 16) (ht : t.val = bi.val * 16 + ii.val)
    (h0 : ¬t.val % 16 = 0) (r : Fin 32) (cc : Fin 2) :
    (outsAt0 m c t.val t.isLt).2 (ix2 r cc)
      = (outsAt0 m c (t.val - 1) (Nat.lt_of_le_of_lt (Nat.sub_le _ _) t.isLt)).2 (ix2 r cc) + partN m c bi r cc ii.val := by
  by_cases h1 : t.val % 16 = 15
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (blk0 m c t) (blk1 m c t) (blk2 m c t) (blk3 m c t) (outsAt0 m c (t.val - 1) (Nat.lt_of_le_of_lt (Nat.sub_le _ _) t.isLt)).2) (ix2 r cc)).trans ?_
    exact step_apply m c t bi ii ht _ r cc
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (blk0 m c t) (blk1 m c t) (blk2 m c t) (blk3 m c t) (outsAt0 m c (t.val - 1) (Nat.lt_of_le_of_lt (Nat.sub_le _ _) t.isLt)).2) (ix2 r cc)).trans ?_
    exact step_apply m c t bi ii ht _ r cc

/-- At the last chunk the output block holds what the scratch holds. -/
theorem out_eq_scratch (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (blk0 m c t) (blk1 m c t) (blk2 m c t) (blk3 m c t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (blk0 m c t) (blk1 m c t) (blk2 m c t) (blk3 m c t) (outsAt0 m c (t.val - 1) (Nat.lt_of_le_of_lt (Nat.sub_le _ _) t.isLt)).2).symm

/-- THE RUNNING SUM: after chunk `ii` of batch block `bi` the scratch holds the chunk parts `0, …, ii`. -/
theorem scratch_eq (c : Dev nD) (bi : Fin 4) : ∀ (ii : ℕ) (hii : ii < 16) (h : bi.val * 16 + ii < cfg0.N) (r : Fin 32) (cc : Fin 2),
    (outsAt0 m c (bi.val * 16 + ii) h).2 (ix2 r cc) = ∑ i ∈ Finset.range (ii + 1), partN m c bi r cc i
  | 0, hii, h, r, cc => by
    have hbi := bi.isLt
    refine (scratch_first_apply m c ⟨bi.val * 16 + 0, h⟩ bi ⟨0, hii⟩ rfl (by dsimp only; omega) (by dsimp only; omega) r cc).trans ?_
    exact (Cert.SumRegroup.sum_range_one_zero_add _).symm
  | ii + 1, hii, h, r, cc => by
    have hbi := bi.isLt
    refine (scratch_later_apply m c ⟨bi.val * 16 + (ii + 1), h⟩ bi ⟨ii + 1, hii⟩ rfl (by dsimp only; omega) r cc).trans ?_
    rw [Finset.sum_range_succ _ (ii + 1)]
    refine congrArg (· + partN m c bi r cc (ii + 1)) ?_
    rw [outsAt0_congr m c _ (bi.val * 16 + ii) _ (by omega) (by dsimp only; omega)]
    exact scratch_eq c bi ii (by omega) (by omega) r cc

/-! ## From the points to the array -/

/-- At a last chunk (`t ≡ 15 mod 16`) the output block at `(r, c)` is the score of row `(t / 16)·32 + r`. -/
theorem out_last_apply (c : Dev nD) (t : Fin cfg0.N) (bi : Fin 4) (ht : t.val = bi.val * 16 + 15) (r : Fin 32) (cc : Fin 2) :
    (outsAt0 m c t.val t.isLt).1 (ix2 r cc) = scoreArr m c (ix2 (brow bi r) cc) := by
  have hbi := bi.isLt
  rw [out_eq_scratch m c t (by omega) (by omega), outsAt0_congr m c _ (bi.val * 16 + 15) _ (by rw [← ht]; exact t.isLt) ht,
    scratch_eq m c bi 15 (by decide) _ r cc]
  exact sum_range_chunkN _ _ _ _ bi r cc

/-- The same at any entry of the block, against the score at the entry's place in the array. -/
theorem out_last_emb (c : Dev nD) (t : Fin cfg0.N) (h15 : t.val % 16 = 15) (j : S32x2.Idx) :
    (outsAt0 m c t.val t.isLt).1 j = scoreArr m c (((cfg0.win 4).blk t).view.emb j) := by
  have hN : t.val < 64 := lt_of_lt_of_eq t.isLt (show cfg0.N = 64 from N_0)
  obtain ⟨-, -, -, -, -, -, -, -, -, -, e40, e41⟩ := idx_facts t
  obtain ⟨r, cc, rfl⟩ : ∃ (r : Fin 32) (cc : Fin 2), j = ix2 r cc := ⟨j 0, j 1, eq_ix2 j⟩
  rw [out_last_apply m c t ⟨t.val / 16, by omega⟩ (by dsimp only; omega) r cc]
  refine congrArg (scoreArr m c) (funext fun a => Fin.ext ?_)
  match a with
  | ⟨0, _⟩ => show (t.val / 16) * 32 + r.val = win0_4.index t (0 : Fin 2) * 32 + 1 * r.val; omega
  | ⟨1, _⟩ => show cc.val = win0_4.index t (1 : Fin 2) * 2 + 1 * cc.val; omega

/-- WHAT A FLUSHING POINT WRITES BACK is its block of the score. -/
theorem flushed_eq (c : Dev nD) (t : Fin cfg0.N) (hf : (cfg0.win 4).flush t = true) :
    (dats m 0 c).flushed 4 t = ((cfg0.win 4).blk t).view.read (Elt Ideal) (scoreArr m c) := by
  have h15 : t.val % 16 = 15 := (flush0_4 t).mp hf
  show (cfg0.win 4).cut (grid0.coords t) ((dats m 0 c).after 4 t) = _
  rw [after0_4]
  funext j
  exact out_last_emb m c t h15 j

/-- An index of the result array is in point `t`'s block iff each coordinate is in the block's range. -/
theorem mem_blk (t : Fin cfg0.N) (i : S128x2.Idx) :
    i ∈ ((cfg0.win 4).blk t).view.set ↔ ∀ a : Fin 2, win0_4.index t a * S32x2.size a ≤ (i a).val ∧ (i a).val < win0_4.index t a * S32x2.size a + S32x2.size a := by
  show i ∈ ((View.whole main_v9).slice (win0_4.rect t)).set ↔ _
  rw [View.set_slice_whole, Rect.mem_set_unit]
  exact Iff.rfl

/-- THE REGION'S RESULT ARRAY is the score: row `b` is written back by the last point of batch block `b / 32`. -/
theorem final (c : Dev nD) : (dats m 0 c).arrAt 4 cfg0.N = scoreArr m c :=
  (dats m 0 c).arrAt_eq_of_cover 4 (scoreArr m c) (flushed_eq m c) fun i => by
    have hi0 : (i 0).val < 128 := (i 0).isLt
    have hi1 : (i 1).val < 2 := (i 1).isLt
    have hN : cfg0.N = 64 := N_0
    refine ⟨⟨(i 0).val / 32 * 16 + 15, by omega⟩, (flush0_4 _).mpr (by dsimp only; omega), ?_⟩
    obtain ⟨-, -, -, -, -, -, -, -, -, -, e40, e41⟩ := idx_facts ⟨(i 0).val / 32 * 16 + 15, by omega⟩
    rw [mem_blk]
    intro a
    match a with
    | ⟨0, _⟩ =>
      show win0_4.index _ (0 : Fin 2) * 32 ≤ (i 0).val ∧ (i 0).val < win0_4.index _ (0 : Fin 2) * 32 + 32
      rw [e40]; dsimp only; omega
    | ⟨1, _⟩ =>
      show win0_4.index _ (1 : Fin 2) * 2 ≤ (i 1).val ∧ (i 1).val < win0_4.index _ (1 : Fin 2) * 2 + 2
      rw [e41]; omega

/-! ## The host tail: the bias added along the rows -/

/-- The program's result buffer after the host lines that follow the region: the score plus the broadcast bias. -/
theorem tail_eq (c : Dev nD) :
    (Pipeline.afterTail₀ cfgs (dats m) 0 (V0 m) [hostOps1] c main_v12 : Vec Ideal S128x2 .f32)
      = addf (F := Ideal) (φ := .f32) (scoreArr m c) (broadcastInDim S128x2 ![0, 1] bcast_S1x2_S128x2_0_1 (broadcastInDim S1x2 ![1] bcast_S2_S1x2_1 (biasArr m c))) := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.tc.devRef main_v9) = scoreArr m c from
      (Pipeline.withArrays_arr spec0 launch0.win.arr_inj c _ _ 4).trans (final m c),
    show Pipeline.withArrays (cfgs 0).spec c (V0 m c) (fun w => (dats m 0 c).arrAt w (cfgs 0).N) (Proc.tc.devRef main_arg4) = biasArr m c from
      (Pipeline.withArrays_of_ne _ c (V0 m c) _ main_arg4 (by exact (by decide : ∀ w, Pipeline.arrRef spec0 w ≠ main_arg4))).trans (V_main_arg4 m c)]

/-- The bias broadcast along the rows, at `(b, c)`, is `bias[c]`. -/
theorem bias_apply (c : Dev nD) (j : S128x2.Idx) :
    broadcastInDim S128x2 ![0, 1] bcast_S1x2_S128x2_0_1 (broadcastInDim S1x2 ![1] bcast_S2_S1x2_1 (biasArr m c)) j
      = biasArr m c (ix1 (j 1)) := by
  refine (broadcastInDim_apply _ bcast_S1x2_S128x2_0_1 _ j (ix2 (0 : Fin 1) (j 1)) (fun a => match a with
    | ⟨0, _⟩ => by show 0 = if (1 : Nat) = 1 then 0 else (j 0).val; rw [if_pos rfl]
    | ⟨1, _⟩ => by show (j 1).val = if (2 : Nat) = 1 then 0 else (j 1).val; rw [if_neg (by decide)])).trans ?_
  exact broadcastInDim_apply _ bcast_S2_S1x2_1 _ (ix2 (0 : Fin 1) (j 1)) (ix1 (j 1)) (fun a => match a with
    | ⟨0, _⟩ => by show (j 1).val = if (2 : Nat) = 1 then 0 else (j 1).val; rw [if_neg (by decide)])

/-- THE PROGRAM'S RESULT is the specification's `result` of the gathered word vectors and the launched arrays. -/
theorem result_eq (c : Dev nD) :
    (Pipeline.afterTail₀ cfgs (dats m) 0 (V0 m) [hostOps1] c main_v12 : Vec Ideal S128x2 .f32)
      = result (wvArr m c) (imsArr m c) (maskArr m c) (weightArr m c) (biasArr m c) := by
  rw [tail_eq]
  funext j
  rw [addf_apply, bias_apply]
  rfl

/-! ## The run, read -/

/-- Every weakly fair execution of the idealized kernel ends with the result buffer at `result` and the arguments unchanged. -/
theorem run : θ_run defs (onTc (τ := τ) (main (F := Ideal))) ⟨m, fun _ => 0, ρ⟩ fun r => ∀ c : Dev nD,
      r.2.mem ((c.tc : Thread nD τ).loc main_v12) = result (wvArr m c) (imsArr m c) (maskArr m c) (weightArr m c) (biasArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v12 (Pipeline.mem_restRefs_of main_v12 (by decide) (by decide))).trans (result_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Align

end
-- ==== Proof.RefValue.lean ====
/-
  The reference's result, over the extended reals, is the same `result` of its own gathered word vectors.

  The reference forms the outer product `wv[b, w] · ims[b, i]` as a [128, 300, 2048] array, flattens
  `(w, i)` row-major to the feature axis, multiplies by the mask, and contracts the feature axis against
  the transposed weights in one matrix product; then it adds the bias broadcast along the rows. At
  feature `k = w·2048 + i` the contraction's summand is exactly the specification's `term` at `(w, i)`,
  so the sum over the 614400 features is the double sum over `(w, i)`.
-/
import proofs.«125736_j44263932952625_1_alg».proof.Proof.Gen.ReferenceIdeal.Read
import proofs.«125736_j44263932952625_1_alg».proof.Proof.AlignSpec

noncomputable section

open scoped BigOperators

namespace Cert.ReferenceIdeal.Align

open Cert.ReferenceIdeal Cert.ReferenceIdeal.Gen Cert.ReferenceIdeal.Read Idealize.ShloMosaic Idealize.ShloMosaic.ValueIdx
open Cert.AlignSpec

variable (x0 : (⟨S128x2048, .f32⟩ : BufTy).Contents (Elt Ideal)) (x1 : (⟨S128, .i32⟩ : BufTy).Contents (Elt Ideal)) (x2 : (⟨S30000x300, .f32⟩ : BufTy).Contents (Elt Ideal)) (x3 : (⟨S2x614400, .f32⟩ : BufTy).Contents (Elt Ideal)) (x4 : (⟨S2, .f32⟩ : BufTy).Contents (Elt Ideal)) (x5 : (⟨S128x614400, .f32⟩ : BufTy).Contents (Elt Ideal))

/-- The contraction's summand at feature `k = w·2048 + i` is the score's term at `(w, i)`. -/
theorem summand_eq (b : Fin 128) (c : Fin 2) (w : Fin 300) (i : Fin 2048) (k : Fin 614400) (hk : k.val = w.val * 2048 + i.val) :
    val_main_v13 (F := Ideal) x0 x1 x2 x5 (lidx_main_v15 (ix2 b c) k) * val_main_v14 (F := Ideal) x3 (ridx_main_v15 (ix2 b c) k)
      = term (val_main_v6 (F := Ideal) x1 x2) x0 x5 x3 b c w i := by
  have hb := b.isLt; have hw := w.isLt; have hi := i.isLt; have hkl := k.isLt
  rw [val_main_v13_apply, val_main_v12_apply, val_main_v11_apply, val_main_v9_apply, val_main_v7_apply,
    val_main_v10_apply, val_main_v8_apply, val_main_v14_apply]
  have e1 : idx_main_v7 (idx_main_v9 (idx_main_v12 (lidx_main_v15 (ix2 b c) k))) = ix2 b w := funext fun a => Fin.ext (by
    match a with
    | ⟨0, _⟩ => show (b.val * 614400 + k.val) / 614400 = b.val; omega
    | ⟨1, _⟩ => show (b.val * 614400 + k.val) / 2048 % 300 = w.val; omega)
  have e2 : idx_main_v8 (idx_main_v10 (idx_main_v12 (lidx_main_v15 (ix2 b c) k))) = ix2 b i := funext fun a => Fin.ext (by
    match a with
    | ⟨0, _⟩ => show (b.val * 614400 + k.val) / 614400 = b.val; omega
    | ⟨1, _⟩ => show (b.val * 614400 + k.val) % 2048 = i.val; omega)
  have e3 : lidx_main_v15 (ix2 b c) k = ix2 b (flat w i) := funext fun a => Fin.ext (by
    match a with
    | ⟨0, _⟩ => rfl
    | ⟨1, _⟩ => exact hk)
  have e4 : idx_main_v14 (ridx_main_v15 (ix2 b c) k) = ix2 c (flat w i) := funext fun a => Fin.ext (by
    match a with
    | ⟨0, _⟩ => rfl
    | ⟨1, _⟩ => exact hk)
  rw [e1, e2, e3, e4]
  rfl

/-- THE REFERENCE'S LAST STAGE is the specification's `result` of its gathered word vectors and its arguments. -/
theorem stage_eq :
    val_main_v18 (F := Ideal) x0 x1 x2 x3 x4 x5 = result (val_main_v6 (F := Ideal) x1 x2) x0 x5 x3 x4 := by
  funext j
  obtain ⟨b, c, rfl⟩ : ∃ (b : Fin 128) (c : Fin 2), j = ix2 b c := ⟨j 0, j 1, eq_ix2 j⟩
  rw [val_main_v18_apply, val_main_v15_apply, val_main_v17_apply, val_main_v16_apply]
  unfold result score
  refine congrArg₂ (fun a b : EReal => a + b) ?_ ?_
  · exact Cert.SumRegroup.sum_flat (A := 300) (B := 2048) (N := 614400) rfl _ _
      (fun w i k hk => summand_eq x0 x1 x2 x3 x5 b c w i k hk)
  · exact congrArg x4 (funext fun a => Fin.ext (by
      match a with
      | ⟨0, _⟩ => rfl))

end Cert.ReferenceIdeal.Align

end
-- ==== Proof.lean ====
/-
  The kernel and its reference compute, over the extended reals, ONE function of the arguments:

      out[b, c] = ( ∑ w < 300, ∑ i < 2048,  wv[b, w] · ims[b, i] · mask[b, w·2048 + i] · weight[c, w·2048 + i] ) + bias[c],

  where `wv` is the embedding table gathered at the word indices (negative indices wrapped by the table's
  length), the same host operations in both programs.

  The reference flattens `(w, i)` to one feature axis of length 614400 and contracts it in one matrix product.
  The kernel cuts the batch into 4 blocks of 32 rows and the image axis into 16 chunks of 128 columns; at each
  grid point it forms the masked outer product of the point's blocks, flattens `(w, l)` to an axis of length
  38400, contracts it against the weights' block, and adds the [32, 2] partial product to an accumulator that
  is reset at a batch block's first chunk and copied out at its last; the host then adds the bias. Changes of
  float format are the identity over the extended reals, and a matrix product into a zero accumulator is the
  plain sum. So the two sides differ only in the order and grouping of one finite sum (`Cert.SumRegroup`),
  which needs commutativity and associativity of addition only: the finiteness of the inputs is never used.

  Modules: SumRegroup (the regrouping law), AlignSpec (the function above and its chunk parts), KernelPayload
  (the accumulation step at an entry), KernelPieces (what each control case leaves), KernelBlocks (the input
  blocks as entries of the arguments), KernelValue (the running sum, the result array, the run), RefValue
  (the reference's last stage).
-/
import proofs.«125736_j44263932952625_1_alg».proof.Defs
import proofs.«125736_j44263932952625_1_alg».proof.Proof.Gen.Kernel
import proofs.«125736_j44263932952625_1_alg».proof.Proof.Gen.Kernel.Skeleton
import proofs.«125736_j44263932952625_1_alg».proof.Proof.Gen.Kernel.Launch
import proofs.«125736_j44263932952625_1_alg».proof.Proof.Gen.Kernel.Points
import proofs.«125736_j44263932952625_1_alg».proof.Proof.Gen.Kernel.Frame
import proofs.«125736_j44263932952625_1_alg».proof.Proof.Gen.KernelIdeal
import proofs.«125736_j44263932952625_1_alg».proof.Proof.Gen.KernelIdeal.Skeleton
import proofs.«125736_j44263932952625_1_alg».proof.Proof.Gen.KernelIdeal.Launch
import proofs.«125736_j44263932952625_1_alg».proof.Proof.Gen.KernelIdeal.Points
import proofs.«125736_j44263932952625_1_alg».proof.Proof.Gen.KernelIdeal.Frame
import proofs.«125736_j44263932952625_1_alg».proof.Proof.Gen.ReferenceIdeal
import proofs.«125736_j44263932952625_1_alg».proof.Proof.Gen.ReferenceIdeal.Run
import proofs.«125736_j44263932952625_1_alg».proof.Proof.Gen.ReferenceIdeal.Read
import proofs.«125736_j44263932952625_1_alg».proof.Proof.Gen.Pre_finite_inputs
import proofs.«125736_j44263932952625_1_alg».proof.Proof.KernelValue
import proofs.«125736_j44263932952625_1_alg».proof.Proof.RefValue
import Idealize.ShloMosaic.Adequacy
import Idealize.ShloMosaic.Init

noncomputable section

open Idealize.ShloMosaic Idealize.ShloMosaic.TcCoe Idealize.SL.Sem

/-! ## The word vectors the kernel's region finds are the host gather of the launched arguments -/

namespace Cert.KernelIdeal.Align

open Cert.KernelIdeal Cert.KernelIdeal.Gen

/-- The gather both programs start with, over this program's records: the table read at the word indices, a negative
    index first moved up by the table's length. -/
abbrev gathered (words : IVec S128 32) (table : Vec Ideal S30000x300 .f32) : Vec Ideal S128x300 .f32 :=
  Host.gather gather_S30000x300_S128x1_S128x300_1_0_n_n_0_1_1300 table
    (broadcastInDim S128x1 ![0] bcast_S128_S128x1_0
      (select (cmpi .slt words (broadcastInDim S128 ![] bcast_S_S128 (constantI S_ 32 0#32)))
        (addi words (broadcastInDim S128 ![] bcast_S_S128 (constantI S_ 32 30000#32))) words))

theorem wv_eq (m : (ℓ : Loc nD τ sig) → Buf (Elt Ideal) ℓ) (c : Dev nD) :
    wvArr m c = gathered (m ((c : Thread nD τ).loc main_arg1)) (m ((c : Thread nD τ).loc main_arg2)) := by
  show StableHlo.after (List.flatten [hostOps0]) (fun b => m (c, b)) (Proc.devRef .tc main_v6) = _
  simp only [hostOps0, List.flatten_cons, List.flatten_nil, List.append_nil]
  after_results

end Cert.KernelIdeal.Align

/-! ## The claims -/

namespace Cert.Proof

open Cert.KernelIdeal.Align

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with their result at the one function above. -/
theorem algebraic : Cert.algebraic_KernelIdeal_ReferenceIdeal := by
  intro m ρ m' ρ' _ hagree
  refine ⟨fun c => Cert.AlignSpec.result (wvArr m c) (imsArr m c) (maskArr m c) (weightArr m c) (biasArr m c),
    Cert.KernelIdeal.Align.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v18_eq, Cert.ReferenceIdeal.Align.stage_eq, a0, a1, a2, a3, a4, a5]
  show _ = Cert.AlignSpec.result (wvArr m c) (imsArr m c) (maskArr m c) (weightArr m c) (biasArr m c)
  rw [wv_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
